-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S8192x1024 .f32) (main_v33 : IVec S_ 1) : IVec S_ 1 :=
  let main_v34 : FVec F S8192x1024 .f32 := Host.absf main_arg7
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  main_v38

def fn_part1 {F : FTy → Type} [FloatOps F] (main_arg4 : FVec F S1024 .f32) (main_arg5 : FVec F S1024 .f32) (main_arg6 : FVec F S8192x1024 .f32) (main_arg7 : FVec F S8192x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S1024x1024 .f32) (main_arg3 : FVec F S1024x1024 .f32) (main_arg4 : FVec F S1024 .f32) (main_arg5 : FVec F S1024 .f32) (main_arg6 : FVec F S8192x1024 .f32) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S8192x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .f32 = 32 ∨ (Rect.block (s := S8192x1024) S512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S8192x1.size a
  hwx0_8 : ∀ i : grid0.Coords, EltTy.bits .f32 = 32 ∨ (Rect.block (s := S8192x1) S512x1.size (cc0_transform_8 i) (hinb0_8 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4) S512x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x2 : Shape := ⟨2, ![8192, 2]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x2, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  h_S_ : 0 < S_.numel
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x2_S8192_d1 : S8192x2.ReducesTo [1] S8192
  bcast_S_S8192x1 : S_.BroadcastsInDim S8192x1 (![] : Fin 0 → Fin S8192x1.rank)
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.LibKeepdims.lean ====
/-
  Layout operations of a `keepdims=True` row reduction, read at an index given by coordinates, generic in the extents:
  a vector made a one-column matrix by a shape cast ([a] → [a, 1]); a one-column matrix broadcast along its rows
  ([a, 1] → [a, b]); and, on the extended reals, a float lane sum over axis 1 of a matrix read at a row as the sum over
  that row's entries. Each is the library's general lemma (`shapeCast_apply`, `broadcastTo_apply`,
  `Ideal.multiReduction_add_single`) with both indices written `ix1` / `ix2` and the coordinate arithmetic done.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector cast to a one-column matrix reads, at (p, z), the vector at p: both have row-major position p. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- A one-column matrix broadcast along its rows reads, at (p, q), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- On the extended reals a float lane sum over axis 1 of a matrix is, at row p, the sum over k of the entry (p, k).
    The accumulator's hypothesis is typed as a printed payload's proof is (the zero word equal to itself). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

end Cert.Lib.Keepdims
-- ==== Proof.KernelBlock.lean ====
/-
  What the kernel's body stores for one block of 512 rows, read at one row.

  The body holds a [512, 1024] block of each of gAB, gAG, sAB, sAG, the two whole [1024, 1024] weight arrays and the two
  biases as [1, 1024] rows. It forms the two projections of the block (a contraction into the zero accumulator plus the
  bias row broadcast down the rows; the change of float format of the operands is the identity on the extended reals),
  multiplies them entrywise and sums each row; does the same for the two plain blocks; adds the two column vectors and
  multiplies by the word of one half. At row p of the block this is half the sum of the two row-wise dots of that row.
-/
import proofs.«114879_j35811437314203_1_alg».proof.Proof.Gen.KernelIdeal.Skeleton
import proofs.«114879_j35811437314203_1_alg».proof.Proof.LibPlainDot
import proofs.«114879_j35811437314203_1_alg».proof.Proof.LibKeepdims
import Idealize.ShloMosaic.Lib.ValueLayout
import Idealize.ShloMosaic.Lib.Pipeline.Value

noncomputable section

namespace Cert.KernelIdeal.Block

open Cert.KernelIdeal Cert.KernelIdeal.Gen
open Idealize.ShloMosaic Idealize.ShloMosaic.ValueIdx

/-- The block's contraction into the zero accumulator at (p, j): the sum over k of lhs (p, k) · rhs (k, j). -/
theorem contraction_apply (a : FVec Ideal S512x1024 .bf16) (w : FVec Ideal S1024x1024 .bf16) (p : Fin 512) (j : Fin 1024) :
    matmul dot_S512x1024_S1024x1024_S512x1024_1_0_0_1_n_n none a w (constant S512x1024 .f32 0x00000000#32) (ix2 p j)
      = ∑ k : Fin 1024, a (ix2 p k) * w (ix2 k j) :=
  Cert.Lib.PlainDot.matmul_zero_apply 512 1024 1024 none a w p j

/-- One projection of the block at (p, j): the contraction plus the bias row's entry j. -/
theorem projection_apply (g : FVec Ideal S512x1024 .f32) (w : FVec Ideal S1024x1024 .bf16) (b : FVec Ideal S1x1024 .f32)
    (p : Fin 512) (j : Fin 1024) :
    addf (F := Ideal) (matmul dot_S512x1024_S1024x1024_S512x1024_1_0_0_1_n_n none (truncf .bf16 g bitsLt_bf16_f32)
        (shapeCast S1024x1024 w shapeCasts_S1024x1024_S1024x1024) (constant S512x1024 .f32 0x00000000#32))
      (broadcastTo S512x1024 (shapeCast S1x1024 b shapeCasts_S1x1024_S1x1024) broadcasts_S1x1024_S512x1024) (ix2 p j)
      = (∑ k : Fin 1024, g (ix2 p k) * w (ix2 k j)) + b (ix2 (0 : Fin 1) j) := by
  rw [addf_apply, contraction_apply, broadcastTo_1b_ab_apply, shapeCast_self, shapeCast_self]
  rfl

/-- A row sum kept as a one-column matrix, at (p, 0): the sum over k of the entry (p, k). The accumulator's hypothesis is
    typed as the body's own proof term is (the zero word equal to itself). -/
theorem rowSum_column_apply (src : FVec Ideal S512x1024 .f32) (hφ : FKind.Formats .f32)
    (hacc : (0x00000000#32 : BitVec 32) = 0x00000000#32) (p : Fin 512) :
    shapeCast S512x1 (multiReduction .add [1] S512 src 0x00000000#32 reduces_S512x1024_S512 hφ hacc) shapeCasts_S512_S512x1
        (ix2 p (0 : Fin 1))
      = ∑ k : Fin 1024, src (ix2 p k) :=
  (Cert.Lib.Keepdims.shapeCast_a_a1_apply _ shapeCasts_S512_S512x1 p (0 : Fin 1)).trans
    (Cert.Lib.Keepdims.rowSum_apply src 0x00000000#32 reduces_S512x1024_S512 hφ hacc p)

/-- The stored column at row p: half the sum of the row-wise dot of the two projections and the row-wise dot of the
    two plain blocks. -/
theorem payload_apply (v0 v2 : Vec Ideal S512x1024 .f32) (v4 : Vec Ideal S1024x1024 .bf16) (v7 : Vec Ideal S1x1024 .f32)
    (v11 : Vec Ideal S1024x1024 .bf16) (v14 : Vec Ideal S1x1024 .f32) (v21 v22 : Vec Ideal S512x1024 .f32) (p : Fin 512) :
    k0_pay1 (F := Ideal) v0 v2 v4 v7 v11 v14 v21 v22 (ix2 p (0 : Fin 1))
      = ((∑ j : Fin 1024, ((∑ k : Fin 1024, v0 (ix2 p k) * v4 (ix2 k j)) + v7 (ix2 (0 : Fin 1) j))
            * ((∑ k : Fin 1024, v2 (ix2 p k) * v11 (ix2 k j)) + v14 (ix2 (0 : Fin 1) j)))
          + ∑ j : Fin 1024, v21 (ix2 p j) * v22 (ix2 p j)) * Ideal.ofBits .f32 0x3F000000#32 := by
  unfold k0_pay1
  dsimp only
  rw [mulf_apply, addf_apply, broadcast_apply, rowSum_column_apply, rowSum_column_apply]
  simp only [mulf_apply, projection_apply]
  rfl

end Cert.KernelIdeal.Block

end
-- ==== Proof.RowMean.lean ====
/-
  The function both programs compute, over the extended reals, entry by entry.

  For row r of the eight input arrays:
    p(r, j)  = (sum over k of gAB(r, k) · Wab(k, j)) + bab(j)         the first affine projection
    p'(r, j) = (sum over k of gAG(r, k) · Wag(k, j)) + bag(j)         the second one
    h1(r)    = sum over j of p(r, j) · p'(r, j)                        the row-wise dot of the two projections
    h2(r)    = sum over j of sAB(r, j) · sAG(r, j)                     the row-wise dot of the two plain arrays
    out(r,0) = (h1(r) + h2(r)) · 1/2                                   the mean of the two.
  The kernel multiplies by the word of one half; the reference sums the two-entry row (h1, h2) from zero and divides
  by the word of two. Both words are exact dyadics, and a quotient by the real 2 is the product with the real 1/2 at
  every extended real, so the two agree without any finiteness of the inputs.
-/
import Idealize.ShloMosaic.PureOps.Ideal
import Idealize.ShloMosaic.PureOps.Ideal.Laws
import Idealize.ShloMosaic.Lib.ValueIdx

noncomputable section

namespace Cert.RowMean

open Idealize.ShloMosaic Idealize.ShloMosaic.ValueIdx

/-- The word of `2.0` denotes the real 2. -/
theorem ofBits_two : Ideal.ofBits .f32 0x40000000#32 = ((2 : ℝ) : EReal) := by
  simp [Ideal.ofBits, Ideal.ieee, -EReal.coe_mul]; norm_num

/-- The word of `0.5` denotes the real 1/2. -/
theorem ofBits_half : Ideal.ofBits .f32 0x3F000000#32 = ((1 / 2 : ℝ) : EReal) := by
  simp [Ideal.ofBits, Ideal.ieee, -EReal.coe_mul]; norm_num

/-- A quotient by the word of two is the product with the word of one half, at every extended real. -/
theorem div_two_eq_mul_half (x : EReal) :
    Ideal.div x (Ideal.ofBits .f32 0x40000000#32) = x * Ideal.ofBits .f32 0x3F000000#32 := by
  rw [ofBits_two, ofBits_half, Ideal.div_coe (by norm_num : (2 : ℝ) ≠ 0)]

/-- Entry (r, j) of the affine projection `g · W + b`. -/
def proj (g : FVec Ideal ⟨2, ![8192, 1024]⟩ .f32) (W : FVec Ideal ⟨2, ![1024, 1024]⟩ .f32) (b : FVec Ideal ⟨1, ![1024]⟩ .f32)
    (r : Fin 8192) (j : Fin 1024) : EReal :=
  (∑ k : Fin 1024, g (ix2 r k) * W (ix2 k j)) + b (ix1 j)

/-- The result array: at (r, 0) half the sum of the two row-wise dots. -/
def rowMean (gAB gAG : FVec Ideal ⟨2, ![8192, 1024]⟩ .f32) (Wab Wag : FVec Ideal ⟨2, ![1024, 1024]⟩ .f32)
    (bab bag : FVec Ideal ⟨1, ![1024]⟩ .f32) (sAB sAG : FVec Ideal ⟨2, ![8192, 1024]⟩ .f32) :
    FVec Ideal ⟨2, ![8192, 1]⟩ .f32 :=
  fun i => ((∑ j : Fin 1024, proj gAB Wab bab (i 0) j * proj gAG Wag bag (i 0) j)
      + ∑ j : Fin 1024, sAB (ix2 (i 0) j) * sAG (ix2 (i 0) j)) * Ideal.ofBits .f32 0x3F000000#32

end Cert.RowMean

end
-- ==== Proof.KernelValue.lean ====
/-
  The kernel's result array after the run is the row mean of Proof/RowMean.lean of the argument arrays.

  The grid has 16 points; point t works on rows 512·t … 512·t + 511. Its blocks of gAB, gAG, sAB, sAG are those rows of
  the arrays; the weight windows hold the whole weight arrays at every point (read through the change of float format,
  the identity on the extended reals); the bias windows hold the biases laid out as one row. The block written back at
  point t is rows 512·t … of the one-column result, and these sixteen blocks cover the result array: row r lies in the
  block of point r / 512.
-/
import proofs.«114879_j35811437314203_1_alg».proof.Proof.Gen.KernelIdeal.Value
import proofs.«114879_j35811437314203_1_alg».proof.Proof.KernelBlock
import proofs.«114879_j35811437314203_1_alg».proof.Proof.RowMean
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RowValue

open Cert.KernelIdeal Cert.KernelIdeal.Gen Cert.KernelIdeal.Value Cert.RowMean

variable (m : (ℓ : Loc nD τ sig) → Buf (Elt Ideal) ℓ) (ρ : Dev nD → PrngReg)

theorem hz : (![0, 0] : Fin 2 → Nat) = fun _ => 0 := funext fun a => by fin_cases a <;> rfl

/-- The result array the run is shown to leave. -/
abbrev result (c : Dev nD) : FVec Ideal S8192x1 .f32 :=
  rowMean (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-! ## The arrays the host operations before the region write -/

/-- The first weight window's array: the weight array through the change of format. -/
theorem V_wab (c : Dev nD) : (V m c main_v0 : S1024x1024.Idx → EReal)
    = (truncf (F := Ideal) .bf16 (m ((c : Thread nD τ).loc main_arg2) : FVec Ideal S1024x1024 .f32) bitsLt_bf16_f32 : FVec Ideal S1024x1024 .bf16) := by
  dsimp only [V, hostOps0]; after_results

/-- The second weight window's array. -/
theorem V_wag (c : Dev nD) : (V m c main_v1 : S1024x1024.Idx → EReal)
    = (truncf (F := Ideal) .bf16 (m ((c : Thread nD τ).loc main_arg3) : FVec Ideal S1024x1024 .f32) bitsLt_bf16_f32 : FVec Ideal S1024x1024 .bf16) := by
  dsimp only [V, hostOps0]; after_results

/-- The first bias window's array: the bias laid out as one row. -/
theorem V_bab (c : Dev nD) : (V m c main_v2 : S1x1024.Idx → EReal)
    = shapeCast S1x1024 (m ((c : Thread nD τ).loc main_arg4) : FVec Ideal S1024 .f32) shapeCasts_S1024_S1x1024 := by
  dsimp only [V, hostOps0]; after_results; rfl

/-- The second bias window's array. -/
theorem V_bag (c : Dev nD) : (V m c main_v3 : S1x1024.Idx → EReal)
    = shapeCast S1x1024 (m ((c : Thread nD τ).loc main_arg5) : FVec Ideal S1024 .f32) shapeCasts_S1024_S1x1024 := by
  dsimp only [V, hostOps0]; after_results; rfl

/-! ## The index maps over the grid -/

/-- The printed index maps, decided over the sixteen points: the row windows and the result window are at block row t,
    the weight and bias windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## The input blocks at a point, as entries of the argument arrays -/

/-- Entry (p, k) of point t's block of gAB is entry (512·t + p, k) of gAB. -/
theorem gAB_block (c : Dev nD) (t : Fin cfg0.N) (p : Fin 512) (k : Fin 1024) (r : Fin 8192) (hr : r.val = 512 * t.val + p.val) :
    (iblk m c 0 t : Vec Ideal S512x1024 .f32) (ix2 p k)
      = (m ((c : Thread nD τ).loc main_arg0) : FVec Ideal S8192x1024 .f32) (ix2 r k) := by
  obtain ⟨e0, e1, -⟩ := idx_facts t
  unfold iblk
  rw [View.read_apply]
  show V m c main_arg0 _ = _
  rw [V_main_arg0]
  refine congrArg (m ((c : Thread nD τ).loc main_arg0) : FVec Ideal S8192x1024 .f32) ?_
  funext a; apply Fin.ext
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- Entry (p, k) of point t's block of gAG is entry (512·t + p, k) of gAG. -/
theorem gAG_block (c : Dev nD) (t : Fin cfg0.N) (p : Fin 512) (k : Fin 1024) (r : Fin 8192) (hr : r.val = 512 * t.val + p.val) :
    (iblk m c 1 t : Vec Ideal S512x1024 .f32) (ix2 p k)
      = (m ((c : Thread nD τ).loc main_arg1) : FVec Ideal S8192x1024 .f32) (ix2 r k) := by
  obtain ⟨-, -, e0, e1, -⟩ := idx_facts t
  unfold iblk
  rw [View.read_apply]
  show V m c main_arg1 _ = _
  rw [V_main_arg1]
  refine congrArg (m ((c : Thread nD τ).loc main_arg1) : FVec Ideal S8192x1024 .f32) ?_
  funext a; apply Fin.ext
  match a with
  | ⟨0, _⟩ => show win0_1.index t (0 : Fin 2) * 512 + 1 * p.val = r.val; rw [e0, hr]; omega
  | ⟨1, _⟩ => show win0_1.index t (1 : Fin 2) * 1024 + 1 * k.val = k.val; rw [e1]; omega

/-- Entry (p, k) of point t's block of sAB is entry (512·t + p, k) of sAB. -/
theorem sAB_block (c : Dev nD) (t : Fin cfg0.N) (p : Fin 512) (k : Fin 1024) (r : Fin 8192) (hr : r.val = 512 * t.val + p.val) :
    (iblk m c 6 t : Vec Ideal S512x1024 .f32) (ix2 p k)
      = (m ((c : Thread nD τ).loc main_arg6) : FVec Ideal S8192x1024 .f32) (ix2 r k) := by
  obtain ⟨-, -, -, -, -, -, -, -, -, -, -, -, e0, e1, -⟩ := idx_facts t
  unfold iblk
  rw [View.read_apply]
  show V m c main_arg6 _ = _
  rw [V_main_arg6]
  refine congrArg (m ((c : Thread nD τ).loc main_arg6) : FVec Ideal S8192x1024 .f32) ?_
  funext a; apply Fin.ext
  match a with
  | ⟨0, _⟩ => show win0_6.index t (0 : Fin 2) * 512 + 1 * p.val = r.val; rw [e0, hr]; omega
  | ⟨1, _⟩ => show win0_6.index t (1 : Fin 2) * 1024 + 1 * k.val = k.val; rw [e1]; omega

/-- Entry (p, k) of point t's block of sAG is entry (512·t + p, k) of sAG. -/
theorem sAG_block (c : Dev nD) (t : Fin cfg0.N) (p : Fin 512) (k : Fin 1024) (r : Fin 8192) (hr : r.val = 512 * t.val + p.val) :
    (iblk m c 7 t : Vec Ideal S512x1024 .f32) (ix2 p k)
      = (m ((c : Thread nD τ).loc main_arg7) : FVec Ideal S8192x1024 .f32) (ix2 r k) := by
  obtain ⟨-, -, -, -, -, -, -, -, -, -, -, -, -, -, e0, e1, -⟩ := idx_facts t
  unfold iblk
  rw [View.read_apply]
  show V m c main_arg7 _ = _
  rw [V_main_arg7]
  refine congrArg (m ((c : Thread nD τ).loc main_arg7) : FVec Ideal S8192x1024 .f32) ?_
  funext a; apply Fin.ext
  match a with
  | ⟨0, _⟩ => show win0_7.index t (0 : Fin 2) * 512 + 1 * p.val = r.val; rw [e0, hr]; omega
  | ⟨1, _⟩ => show win0_7.index t (1 : Fin 2) * 1024 + 1 * k.val = k.val; rw [e1]; omega

/-- The first weight window holds Wab at every point. -/
theorem Wab_block (c : Dev nD) (t : Fin cfg0.N) (k j : Fin 1024) :
    (iblk m c 2 t : Vec Ideal S1024x1024 .bf16) (ix2 k j)
      = (m ((c : Thread nD τ).loc main_arg2) : FVec Ideal S1024x1024 .f32) (ix2 k j) := by
  obtain ⟨-, -, -, -, e0, e1, -⟩ := idx_facts t
  unfold iblk
  rw [View.read_apply]
  show V m c main_v0 _ = _
  rw [V_wab, truncf_apply]
  refine congrArg (m ((c : Thread nD τ).loc main_arg2) : FVec Ideal S1024x1024 .f32) ?_
  funext a; apply Fin.ext
  match a with
  | ⟨0, _⟩ => show win0_2.index t (0 : Fin 2) * 1024 + 1 * k.val = k.val; rw [e0]; omega
  | ⟨1, _⟩ => show win0_2.index t (1 : Fin 2) * 1024 + 1 * j.val = j.val; rw [e1]; omega

/-- The second weight window holds Wag at every point. -/
theorem Wag_block (c : Dev nD) (t : Fin cfg0.N) (k j : Fin 1024) :
    (iblk m c 3 t : Vec Ideal S1024x1024 .bf16) (ix2 k j)
      = (m ((c : Thread nD τ).loc main_arg3) : FVec Ideal S1024x1024 .f32) (ix2 k j) := by
  obtain ⟨-, -, -, -, -, -, e0, e1, -⟩ := idx_facts t
  unfold iblk
  rw [View.read_apply]
  show V m c main_v1 _ = _
  rw [V_wag, truncf_apply]
  refine congrArg (m ((c : Thread nD τ).loc main_arg3) : FVec Ideal S1024x1024 .f32) ?_
  funext a; apply Fin.ext
  match a with
  | ⟨0, _⟩ => show win0_3.index t (0 : Fin 2) * 1024 + 1 * k.val = k.val; rw [e0]; omega
  | ⟨1, _⟩ => show win0_3.index t (1 : Fin 2) * 1024 + 1 * j.val = j.val; rw [e1]; omega

/-- The first bias window holds bab as one row at every point. -/
theorem bab_block (c : Dev nD) (t : Fin cfg0.N) (j : Fin 1024) :
    (iblk m c 4 t : Vec Ideal S1x1024 .f32) (ix2 (0 : Fin 1) j)
      = (m ((c : Thread nD τ).loc main_arg4) : FVec Ideal S1024 .f32) (ix1 j) := by
  obtain ⟨-, -, -, -, -, -, -, -, e0, e1, -⟩ := idx_facts t
  unfold iblk
  rw [View.read_apply]
  show V m c main_v2 _ = _
  rw [V_bab]
  refine Eq.trans (congrArg (shapeCast S1x1024 (m ((c : Thread nD τ).loc main_arg4) : FVec Ideal S1024 .f32) shapeCasts_S1024_S1x1024) ?_)
    (shapeCast_a_1a_apply _ shapeCasts_S1024_S1x1024 (0 : Fin 1) j)
  funext a; apply Fin.ext
  match a with
  | ⟨0, _⟩ => show win0_4.index t (0 : Fin 2) * 1 + 1 * 0 = 0; rw [e0]
  | ⟨1, _⟩ => show win0_4.index t (1 : Fin 2) * 1024 + 1 * j.val = j.val; rw [e1]; omega

/-- The second bias window holds bag as one row at every point. -/
theorem bag_block (c : Dev nD) (t : Fin cfg0.N) (j : Fin 1024) :
    (iblk m c 5 t : Vec Ideal S1x1024 .f32) (ix2 (0 : Fin 1) j)
      = (m ((c : Thread nD τ).loc main_arg5) : FVec Ideal S1024 .f32) (ix1 j) := by
  obtain ⟨-, -, -, -, -, -, -, -, -, -, e0, e1, -⟩ := idx_facts t
  unfold iblk
  rw [View.read_apply]
  show V m c main_v3 _ = _
  rw [V_bag]
  refine Eq.trans (congrArg (shapeCast S1x1024 (m ((c : Thread nD τ).loc main_arg5) : FVec Ideal S1024 .f32) shapeCasts_S1024_S1x1024) ?_)
    (shapeCast_a_1a_apply _ shapeCasts_S1024_S1x1024 (0 : Fin 1) j)
  funext a; apply Fin.ext
  match a with
  | ⟨0, _⟩ => show win0_5.index t (0 : Fin 2) * 1 + 1 * 0 = 0; rw [e0]
  | ⟨1, _⟩ => show win0_5.index t (1 : Fin 2) * 1024 + 1 * j.val = j.val; rw [e1]; omega

/-! ## What a point writes back, the cover, and the run -/

/-- What point t writes back is block t of the row mean of the argument arrays. -/
theorem flushed_eq (c : Dev nD) (t : Fin cfg0.N) :
    (dats m 0 c).flushed 8 t = ((cfg0.win 8).blk t).view.read (Elt Ideal) (result m c) := by
  rw [flushed8]
  unfold out0_8
  rw [View.canon_unit_zero hz]
  simp only [View.ld_unit_zero (S := S512x1024) hz, View.ld_unit_zero (S := S1024x1024) hz, View.ld_unit_zero (S := S1x1024) hz]
  have ht : t.val < 16 := lt_of_lt_of_eq t.isLt N_0
  obtain ⟨-, -, -, -, -, -, -, -, -, -, -, -, -, -, -, -, e0, e1⟩ := idx_facts t
  funext y
  obtain ⟨p, q, rfl⟩ : ∃ (p : Fin 512) (q : Fin 1), y = ix2 p q := ⟨y 0, y 1, eq_ix2 y⟩
  obtain rfl : q = 0 := Subsingleton.elim _ _
  obtain ⟨r, hr⟩ : ∃ r : Fin 8192, r.val = 512 * t.val + p.val := ⟨⟨512 * t.val + p.val, by have := p.isLt; omega⟩, rfl⟩
  have hrow : ((cfg0.win 8).blk t).view.emb (ix2 p (0 : Fin 1)) = (ix2 r (0 : Fin 1) : S8192x1.Idx) := by
    funext a; apply Fin.ext
    match a with
    | ⟨0, _⟩ => show win0_8.index t (0 : Fin 2) * 512 + 1 * p.val = r.val; rw [e0, hr]; omega
    | ⟨1, _⟩ => show win0_8.index t (1 : Fin 2) * 1 + 1 * 0 = 0; rw [e1]
  show k0_pay1 (F := Ideal) (iblk m c 0 t) (iblk m c 1 t) (iblk m c 2 t) (iblk m c 4 t) (iblk m c 3 t) (iblk m c 5 t) (iblk m c 6 t) (iblk m c 7 t) (ix2 p (0 : Fin 1))
    = result m c (((cfg0.win 8).blk t).view.emb (ix2 p (0 : Fin 1)))
  rw [hrow]
  refine (Cert.KernelIdeal.Block.payload_apply (iblk m c 0 t) (iblk m c 1 t) (iblk m c 2 t) (iblk m c 4 t) (iblk m c 3 t) (iblk m c 5 t) (iblk m c 6 t) (iblk m c 7 t) p).trans ?_
  simp only [fun k => gAB_block m c t p k r hr, fun k => gAG_block m c t p k r hr, fun k => sAB_block m c t p k r hr,
    fun k => sAG_block m c t p k r hr, Wab_block, Wag_block, bab_block, bag_block]
  rfl

/-- An index of the result array is in point t's block iff each coordinate is in the block's range on its axis. -/
theorem mem_blk (t : Fin cfg0.N) (i : S8192x1.Idx) :
    i ∈ ((cfg0.win 8).blk t).view.set ↔ ∀ a : Fin 2, win0_8.index t a * S512x1.size a ≤ (i a).val ∧ (i a).val < win0_8.index t a * S512x1.size a + S512x1.size a := by
  show i ∈ ((View.whole main_v4).slice (win0_8.rect t)).set ↔ _
  rw [View.set_slice_whole, Rect.mem_set_unit]
  exact Iff.rfl

/-- Row r of the result array lies in the block of point r / 512. -/
theorem cover (i : S8192x1.Idx) : ∃ t : Fin cfg0.N, (cfg0.win 8).flush t = true ∧ i ∈ ((cfg0.win 8).blk t).view.set := by
  have hi0 : (i 0).val < 8192 := (i 0).isLt
  have hi1 : (i 1).val < 1 := (i 1).isLt
  let t : Fin cfg0.N := ⟨(i 0).val / 512, by rw [show cfg0.N = 16 from N_0]; omega⟩
  obtain ⟨-, -, -, -, -, -, -, -, -, -, -, -, -, -, -, -, e0, e1⟩ := idx_facts t
  refine ⟨t, flush0_8 t, ?_⟩
  rw [mem_blk]
  intro a
  match a with
  | ⟨0, _⟩ => show win0_8.index t (0 : Fin 2) * 512 ≤ (i 0).val ∧ (i 0).val < win0_8.index t (0 : Fin 2) * 512 + 512
              rw [e0]; show (i 0).val / 512 * 512 ≤ (i 0).val ∧ (i 0).val < (i 0).val / 512 * 512 + 512; omega
  | ⟨1, _⟩ => show win0_8.index t (1 : Fin 2) * 1 ≤ (i 1).val ∧ (i 1).val < win0_8.index t (1 : Fin 2) * 1 + 1
              rw [e1]; omega

/-- The result array after the run is the row mean of the argument arrays. -/
theorem final (c : Dev nD) : (dats m 0 c).arrAt 8 cfg0.N = result m c :=
  (dats m 0 c).arrAt_eq_of_cover 8 (result m c) (fun t _ => flushed_eq m c t) cover

/-- The run, read: the result array at the row mean of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (run_blocks m ρ)

end Cert.KernelIdeal.RowValue

end
-- ==== Proof.RefValue.lean ====
/-
  The reference's result, read entry by entry, is the row mean of Proof/RowMean.lean.

  The reference forms the two projections by a host contraction plus a bias broadcast along the rows, multiplies them
  entrywise, sums each row from zero, does the same for the two plain arrays, lays the two column vectors side by
  side as a two-column array, sums each of its rows from zero, and divides by two. Read at (r, 0): the row of the
  two-column array has the entries h1(r) and h2(r); the sums from zero drop their zeros; the quotient by the word of
  two is the product with the word of one half.
-/
import proofs.«114879_j35811437314203_1_alg».proof.Proof.Gen.ReferenceIdeal.Read
import proofs.«114879_j35811437314203_1_alg».proof.Proof.RowMean

noncomputable section

namespace Cert.ReferenceIdeal.RefValue

open Cert.ReferenceIdeal Cert.ReferenceIdeal.Gen Cert.ReferenceIdeal.Read Cert.RowMean
open Idealize.ShloMosaic Idealize.ShloMosaic.ValueIdx

/-! ## The index maps of the reference's layout steps, at coordinates -/

theorem lidx0 (r : Fin 8192) (j k : Fin 1024) : lidx_main_v0 (ix2 r j) k = ix2 r k :=
  funext fun a => Fin.ext (by match a with | ⟨0, _⟩ => rfl | ⟨1, _⟩ => rfl)
theorem ridx0 (r : Fin 8192) (j k : Fin 1024) : ridx_main_v0 (ix2 r j) k = ix2 k j :=
  funext fun a => Fin.ext (by match a with | ⟨0, _⟩ => rfl | ⟨1, _⟩ => rfl)
theorem lidx4 (r : Fin 8192) (j k : Fin 1024) : lidx_main_v4 (ix2 r j) k = ix2 r k :=
  funext fun a => Fin.ext (by match a with | ⟨0, _⟩ => rfl | ⟨1, _⟩ => rfl)
theorem ridx4 (r : Fin 8192) (j k : Fin 1024) : ridx_main_v4 (ix2 r j) k = ix2 k j :=
  funext fun a => Fin.ext (by match a with | ⟨0, _⟩ => rfl | ⟨1, _⟩ => rfl)
theorem bias_idx (r : Fin 8192) (j : Fin 1024) : idx_main_v1 (idx_main_v2 (ix2 r j)) = ix1 j :=
  funext fun a => Fin.ext (by match a with | ⟨0, _⟩ => rfl)
theorem bias_idx' (r : Fin 8192) (j : Fin 1024) : idx_main_v5 (idx_main_v6 (ix2 r j)) = ix1 j :=
  funext fun a => Fin.ext (by match a with | ⟨0, _⟩ => rfl)
theorem row_idx9 (p : Fin 8192) (k : Fin 1024) : idx_main_v9 (idx_main_v10 (ix2 p (0 : Fin 1))) k = ix2 p k :=
  funext fun a => Fin.ext (by match a with | ⟨0, _⟩ => rfl | ⟨1, _⟩ => rfl)
theorem row_idx12 (p : Fin 8192) (k : Fin 1024) : idx_main_v12 (idx_main_v13 (ix2 p (0 : Fin 1))) k = ix2 p k :=
  funext fun a => Fin.ext (by match a with | ⟨0, _⟩ => rfl | ⟨1, _⟩ => rfl)
theorem pair_idx (p : Fin 8192) (q : Fin 1) (k : Fin 2) : idx_main_v15 (idx_main_v16 (ix2 p q)) k = ix2 p k :=
  funext fun a => Fin.ext (by match a with | ⟨0, _⟩ => rfl | ⟨1, _⟩ => rfl)

/-! ## The two projections and the two-column array -/

/-- The first projection at (r, j). -/
theorem proj_ab (x0 : FVec Ideal S8192x1024 .f32) (x2 : FVec Ideal S1024x1024 .f32) (x4 : FVec Ideal S1024 .f32)
    (r : Fin 8192) (j : Fin 1024) : val_main_v3 (F := Ideal) x0 x2 x4 (ix2 r j) = proj x0 x2 x4 r j := by
  rw [val_main_v3_apply, val_main_v0_apply, val_main_v2_apply, val_main_v1_apply, bias_idx]
  simp only [lidx0, ridx0]
  rfl

/-- The second projection at (r, j). -/
theorem proj_ag (x1 : FVec Ideal S8192x1024 .f32) (x3 : FVec Ideal S1024x1024 .f32) (x5 : FVec Ideal S1024 .f32)
    (r : Fin 8192) (j : Fin 1024) : val_main_v7 (F := Ideal) x1 x3 x5 (ix2 r j) = proj x1 x3 x5 r j := by
  rw [val_main_v7_apply, val_main_v4_apply, val_main_v6_apply, val_main_v5_apply, bias_idx']
  simp only [lidx4, ridx4]
  rfl

/-- Column 0 of the two-column array is its first piece. -/
theorem pair_left (a b : FVec Ideal S8192x1 .f32) (p : Fin 8192) :
    concatenate S8192x2 1 [⟨S8192x1, a⟩, ⟨S8192x1, b⟩] concatenates_S8192x1_S8192x1_S8192x2_d1 (ix2 p (0 : Fin 2))
      = a (ix2 p (0 : Fin 1)) :=
  concatenate_pair_apply_left 1 a b _ (ix2 p (0 : Fin 2)) rfl (ix2 p (0 : Fin 1))
    (fun d => match d with | ⟨0, _⟩ => rfl | ⟨1, _⟩ => rfl)

/-- Column 1 of the two-column array is its second piece. -/
theorem pair_right (a b : FVec Ideal S8192x1 .f32) (p : Fin 8192) :
    concatenate S8192x2 1 [⟨S8192x1, a⟩, ⟨S8192x1, b⟩] concatenates_S8192x1_S8192x1_S8192x2_d1 (ix2 p (1 : Fin 2))
      = b (ix2 p (0 : Fin 1)) :=
  concatenate_pair_apply_right 1 a b _ (ix2 p (1 : Fin 2)) rfl rfl (ix2 p (0 : Fin 1))
    (fun d hd => match d, hd with | ⟨0, _⟩, _ => rfl | ⟨1, _⟩, hd => absurd rfl hd) rfl

/-! ## The result -/

/-- The reference's last stage is the row mean of its arguments. -/
theorem result_eq (x0 x1 : FVec Ideal S8192x1024 .f32) (x2 x3 : FVec Ideal S1024x1024 .f32) (x4 x5 : FVec Ideal S1024 .f32)
    (x6 x7 : FVec Ideal S8192x1024 .f32) :
    val_main_v18 (F := Ideal) x0 x1 x2 x3 x4 x5 x6 x7 = rowMean x0 x1 x2 x3 x4 x5 x6 x7 := by
  funext i
  obtain ⟨p, q, rfl⟩ : ∃ (p : Fin 8192) (q : Fin 1), i = ix2 p q := ⟨i 0, i 1, eq_ix2 i⟩
  rw [val_main_v18_apply, val_main_v17_apply, val_main_cst_2_apply, val_main_v16_apply, val_main_v15_apply,
    val_main_cst_1_apply, Fin.sum_univ_two, pair_idx, pair_idx]
  unfold val_main_v14
  rw [pair_left, pair_right, val_main_v10_apply, val_main_v9_apply, val_main_cst_apply, val_main_v13_apply,
    val_main_v12_apply, val_main_cst_0_apply]
  simp only [row_idx9, row_idx12, val_main_v8_apply, val_main_v11_apply, proj_ab, proj_ag, Ideal.ofBits_def,
    Ideal.mulf_def, Ideal.hostDivf_def, Ideal.ofBits_zero_f32, zero_add]
  exact div_two_eq_mul_half _

end Cert.ReferenceIdeal.RefValue

end
-- ==== Proof.lean ====
/- The certificate's claim: the kernel and its idealization run and keep their arguments, the reference does too, and over
   the extended reals the idealized kernel and the idealized reference leave the same [8192, 1] result: at row r half the
   sum of the row-wise dot of the two affine projections gAB·Wab + bab and gAG·Wag + bag and the row-wise dot of sAB and sAG.

   The kernel tiles the rows in sixteen blocks of 512, contracts each block against the whole weight arrays (whose change
   of float format is the identity on the extended reals), adds the bias rows, multiplies, sums the rows and halves by
   a product with 1/2 (Proof/KernelBlock.lean, Proof/KernelValue.lean). The reference forms the same two row sums over
   the whole arrays, lays them side by side, sums that two-entry row from zero and divides by 2 (Proof/RefValue.lean).
   A quotient by 2 is the product with 1/2 at every extended real (Proof/RowMean.lean), so no finiteness of the inputs is
   used. The ideal pass rewrote nothing, so the idealization claim is trivial. -/
import proofs.«114879_j35811437314203_1_alg».proof.Defs
import proofs.«114879_j35811437314203_1_alg».proof.Proof.Gen.Kernel
import proofs.«114879_j35811437314203_1_alg».proof.Proof.Gen.Kernel.Skeleton
import proofs.«114879_j35811437314203_1_alg».proof.Proof.Gen.Kernel.Launch
import proofs.«114879_j35811437314203_1_alg».proof.Proof.Gen.Kernel.Points
import proofs.«114879_j35811437314203_1_alg».proof.Proof.Gen.Kernel.Frame
import proofs.«114879_j35811437314203_1_alg».proof.Proof.Gen.KernelIdeal
import proofs.«114879_j35811437314203_1_alg».proof.Proof.Gen.KernelIdeal.Skeleton
import proofs.«114879_j35811437314203_1_alg».proof.Proof.Gen.KernelIdeal.Launch
import proofs.«114879_j35811437314203_1_alg».proof.Proof.Gen.KernelIdeal.Points
import proofs.«114879_j35811437314203_1_alg».proof.Proof.Gen.KernelIdeal.Frame
import proofs.«114879_j35811437314203_1_alg».proof.Proof.Gen.ReferenceIdeal
import proofs.«114879_j35811437314203_1_alg».proof.Proof.Gen.KernelIdeal.Value
import proofs.«114879_j35811437314203_1_alg».proof.Proof.Gen.ReferenceIdeal.Run
import proofs.«114879_j35811437314203_1_alg».proof.Proof.Gen.ReferenceIdeal.Read
import proofs.«114879_j35811437314203_1_alg».proof.Proof.Gen.Pre_finite_inputs
import proofs.«114879_j35811437314203_1_alg».proof.Proof.KernelValue
import proofs.«114879_j35811437314203_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the row mean of their (agreeing) arguments in the result array. -/
theorem algebraic : Cert.algebraic_KernelIdeal_ReferenceIdeal := by
  intro m ρ m' ρ' _ hagree
  refine ⟨fun c => Cert.KernelIdeal.RowValue.result m c, Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v18_eq, Cert.ReferenceIdeal.RefValue.result_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
